-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32 : Shape := ⟨2, ![32, 32]⟩
abbrev S32 : Shape := ⟨1, ![32]⟩
abbrev S_ : Shape := ⟨0, ![]⟩

class Facts : Prop where
  bcast_S_S32x32 : S_.BroadcastsInDim S32x32 (![] : Fin 0 → Fin S32x32.rank)
  reducesTo_S32x32_S_d0_1 : S32x32.ReducesTo [0, 1] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S32x32 .f32) (main_arg1 : FVec F S32x32 .f32) (main_arg2 : FVec F S32 .f32) : IVec S_ 1 :=
  let main_v0 : FVec F S32x32 .f32 := Host.absf main_arg0
  let main_cst : FVec F S_ .f32 := constant S_ .f32 0x7F800000#32
  let main_v1 : FVec F S32x32 .f32 := broadcastInDim S32x32 ![] bcast_S_S32x32 main_cst
  let main_v2 : IVec S32x32 1 := cmpf .olt main_v0 main_v1
  let main_c : IVec S_ 1 := constantI S_ 1 1#1
  let main_v3 : IVec S_ 1 := (fun x v => Host.reduce IntOp.andi x v reducesTo_S32x32_S_d0_1 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S32x32 : Shape := ⟨2, ![32, 32]⟩
abbrev S32 : Shape := ⟨1, ![32]⟩
abbrev S1x32 : Shape := ⟨2, ![1, 32]⟩

abbrev nBuf : Space → Nat
  | .hbm => 5
  | .vmem => 4
  | .smem => 0
  | _ => 0

abbrev bufTy : (tb : Table) → Fin (tcTables nBuf tb) → BufTy
  | .hbm, ⟨0, _⟩ => ⟨S32x32, .f32⟩
  | .hbm, ⟨1, _⟩ => ⟨S32x32, .f32⟩
  | .hbm, ⟨2, _⟩ => ⟨S32, .f32⟩
  | .hbm, ⟨3, _⟩ => ⟨S1x32, .f32⟩
  | .hbm, ⟨4, _⟩ => ⟨S32x32, .f32⟩
  | .local _ .vmem, ⟨0, _⟩ => ⟨S32x32, .f32⟩
  | .local _ .vmem, ⟨1, _⟩ => ⟨S32x32, .f32⟩
  | .local _ .vmem, ⟨2, _⟩ => ⟨S1x32, .f32⟩
  | .local _ .vmem, ⟨3, _⟩ => ⟨S32x32, .f32⟩
  | _, _ => ⟨S32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S32_S1x32 : S32.ShapeCasts S1x32
  inb_S32x32_S32x32_0_0 : ∀ a, (![0, 0] : Fin 2 → Nat) a + S32x32.size a ≤ S32x32.size a
  h_S32x32 : 0 < S32x32.numel
  bitsLt_bf16_f32 : FTy.bits .bf16 < FTy.bits .f32
  transposes_S32x32_p1_0_S32x32 : S32x32.Transposes [1, 0] S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S32x32 : S1x32.Broadcasts S32x32
  dot_S32x32_S32x32_S32x32_1_0_0_1_n_n_wf : DotDims.WF S32x32 S32x32 S32x32 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x32.size a ≤ S32x32.size a
  hwx0_0 : ∀ i : grid0.Coords, EltTy.bits .f32 = 32 ∨ (Rect.block (s := S32x32) S32x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)

variable [Facts₀]

def dot_S32x32_S32x32_S32x32_1_0_0_1_n_n : DotDims S32x32 S32x32 S32x32 where
  lhsContracting := [1]
  rhsContracting := [0]
  lhsNonContracting := [0]
  rhsNonContracting := [1]
  lhsBatch := []
  rhsBatch := []
  wf := dot_S32x32_S32x32_S32x32_1_0_0_1_n_n_wf

abbrev win0_0 : Pipeline.Window sig grid0 :=
  Pipeline.Window.ofSpec (Memref.whole main_arg0) S32x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x32.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x32 : Shape := ⟨2, ![32, 32]⟩
abbrev S32 : Shape := ⟨1, ![32]⟩
abbrev S_ : Shape := ⟨0, ![]⟩
abbrev S1x32 : Shape := ⟨2, ![1, 32]⟩

abbrev nBuf : Space → Nat
  | .hbm => 168
  | .vmem => 0
  | .smem => 0
  | _ => 0

abbrev hbmTy0_0 (i : Nat) : BufTy := match i % 128 with
  | 0 => ⟨S32x32, .f32⟩
  | 1 => ⟨S32x32, .f32⟩
  | 2 => ⟨S32, .f32⟩
  | 3 => ⟨S_, .f32⟩
  | 4 => ⟨S32x32, .f32⟩
  | 5 => ⟨S32x32, .f32⟩
  | 6 => ⟨S32x32, .f32⟩
  | 7 => ⟨S32x32, .f32⟩
  | 8 => ⟨S_, .f32⟩
  | 9 => ⟨S32x32, .f32⟩
  | 10 => ⟨S32x32, .f32⟩
  | 11 => ⟨S32x32, .f32⟩
  | 12 => ⟨S32x32, .f32⟩
  | 13 => ⟨S_, .f32⟩
  | 14 => ⟨S32x32, .f32⟩
  | 15 => ⟨S32x32, .f32⟩
  | 16 => ⟨S32x32, .f32⟩
  | 17 => ⟨S32x32, .f32⟩
  | 18 => ⟨S_, .f32⟩
  | 19 => ⟨S32x32, .f32⟩
  | 20 => ⟨S32x32, .f32⟩
  | 21 => ⟨S32x32, .f32⟩
  | 22 => ⟨S32x32, .f32⟩
  | 23 => ⟨S_, .f32⟩
  | 24 => ⟨S32x32, .f32⟩
  | 25 => ⟨S32x32, .f32⟩
  | 26 => ⟨S32x32, .f32⟩
  | 27 => ⟨S32x32, .f32⟩
  | 28 => ⟨S_, .f32⟩
  | 29 => ⟨S32x32, .f32⟩
  | 30 => ⟨S32x32, .f32⟩
  | 31 => ⟨S32x32, .f32⟩
  | 32 => ⟨S32x32, .f32⟩
  | 33 => ⟨S_, .f32⟩
  | 34 => ⟨S32x32, .f32⟩
  | 35 => ⟨S32x32, .f32⟩
  | 36 => ⟨S32x32, .f32⟩
  | 37 => ⟨S32x32, .f32⟩
  | 38 => ⟨S_, .f32⟩
  | 39 => ⟨S32x32, .f32⟩
  | 40 => ⟨S32x32, .f32⟩
  | 41 => ⟨S32x32, .f32⟩
  | 42 => ⟨S32x32, .f32⟩
  | 43 => ⟨S_, .f32⟩
  | 44 => ⟨S32x32, .f32⟩
  | 45 => ⟨S32x32, .f32⟩
  | 46 => ⟨S32x32, .f32⟩
  | 47 => ⟨S32x32, .f32⟩
  | 48 => ⟨S_, .f32⟩
  | 49 => ⟨S32x32, .f32⟩
  | 50 => ⟨S32x32, .f32⟩
  | 51 => ⟨S32x32, .f32⟩
  | 52 => ⟨S32x32, .f32⟩
  | 53 => ⟨S_, .f32⟩
  | 54 => ⟨S32x32, .f32⟩
  | 55 => ⟨S32x32, .f32⟩
  | 56 => ⟨S32x32, .f32⟩
  | 57 => ⟨S32x32, .f32⟩
  | 58 => ⟨S_, .f32⟩
  | 59 => ⟨S32x32, .f32⟩
  | 60 => ⟨S32x32, .f32⟩
  | 61 => ⟨S32x32, .f32⟩
  | 62 => ⟨S32x32, .f32⟩
  | 63 => ⟨S_, .f32⟩
  | 64 => ⟨S32x32, .f32⟩
  | 65 => ⟨S32x32, .f32⟩
  | 66 => ⟨S32x32, .f32⟩
  | 67 => ⟨S32x32, .f32⟩
  | 68 => ⟨S_, .f32⟩
  | 69 => ⟨S32x32, .f32⟩
  | 70 => ⟨S32x32, .f32⟩
  | 71 => ⟨S32x32, .f32⟩
  | 72 => ⟨S32x32, .f32⟩
  | 73 => ⟨S_, .f32⟩
  | 74 => ⟨S32x32, .f32⟩
  | 75 => ⟨S32x32, .f32⟩
  | 76 => ⟨S32x32, .f32⟩
  | 77 => ⟨S32x32, .f32⟩
  | 78 => ⟨S_, .f32⟩
  | 79 => ⟨S32x32, .f32⟩
  | 80 => ⟨S32x32, .f32⟩
  | 81 => ⟨S32x32, .f32⟩
  | 82 => ⟨S32x32, .f32⟩
  | 83 => ⟨S_, .f32⟩
  | 84 => ⟨S32x32, .f32⟩
  | 85 => ⟨S32x32, .f32⟩
  | 86 => ⟨S32x32, .f32⟩
  | 87 => ⟨S32x32, .f32⟩
  | 88 => ⟨S_, .f32⟩
  | 89 => ⟨S32x32, .f32⟩
  | 90 => ⟨S32x32, .f32⟩
  | 91 => ⟨S32x32, .f32⟩
  | 92 => ⟨S32x32, .f32⟩
  | 93 => ⟨S_, .f32⟩
  | 94 => ⟨S32x32, .f32⟩
  | 95 => ⟨S32x32, .f32⟩
  | 96 => ⟨S32x32, .f32⟩
  | 97 => ⟨S32x32, .f32⟩
  | 98 => ⟨S_, .f32⟩
  | 99 => ⟨S32x32, .f32⟩
  | 100 => ⟨S32x32, .f32⟩
  | 101 => ⟨S32x32, .f32⟩
  | 102 => ⟨S32x32, .f32⟩
  | 103 => ⟨S_, .f32⟩
  | 104 => ⟨S32x32, .f32⟩
  | 105 => ⟨S32x32, .f32⟩
  | 106 => ⟨S32x32, .f32⟩
  | 107 => ⟨S32x32, .f32⟩
  | 108 => ⟨S_, .f32⟩
  | 109 => ⟨S32x32, .f32⟩
  | 110 => ⟨S32x32, .f32⟩
  | 111 => ⟨S32x32, .f32⟩
  | 112 => ⟨S32x32, .f32⟩
  | 113 => ⟨S_, .f32⟩
  | 114 => ⟨S32x32, .f32⟩
  | 115 => ⟨S32x32, .f32⟩
  | 116 => ⟨S32x32, .f32⟩
  | 117 => ⟨S32x32, .f32⟩
  | 118 => ⟨S_, .f32⟩
  | 119 => ⟨S32x32, .f32⟩
  | 120 => ⟨S32x32, .f32⟩
  | 121 => ⟨S32x32, .f32⟩
  | 122 => ⟨S32x32, .f32⟩
  | 123 => ⟨S_, .f32⟩
  | 124 => ⟨S32x32, .f32⟩
  | 125 => ⟨S32x32, .f32⟩
  | 126 => ⟨S32x32, .f32⟩
  | 127 => ⟨S32x32, .f32⟩
  | _ => ⟨S32x32, .f32⟩

abbrev hbmTy0_1 (i : Nat) : BufTy := match i % 128 with
  | 0 => ⟨S_, .f32⟩
  | 1 => ⟨S32x32, .f32⟩
  | 2 => ⟨S32x32, .f32⟩
  | 3 => ⟨S32x32, .f32⟩
  | 4 => ⟨S32x32, .f32⟩
  | 5 => ⟨S_, .f32⟩
  | 6 => ⟨S32x32, .f32⟩
  | 7 => ⟨S32x32, .f32⟩
  | 8 => ⟨S32x32, .f32⟩
  | 9 => ⟨S32x32, .f32⟩
  | 10 => ⟨S_, .f32⟩
  | 11 => ⟨S32x32, .f32⟩
  | 12 => ⟨S32x32, .f32⟩
  | 13 => ⟨S32x32, .f32⟩
  | 14 => ⟨S32x32, .f32⟩
  | 15 => ⟨S_, .f32⟩
  | 16 => ⟨S32x32, .f32⟩
  | 17 => ⟨S32x32, .f32⟩
  | 18 => ⟨S32x32, .f32⟩
  | 19 => ⟨S32x32, .f32⟩
  | 20 => ⟨S_, .f32⟩
  | 21 => ⟨S32x32, .f32⟩
  | 22 => ⟨S32x32, .f32⟩
  | 23 => ⟨S32x32, .f32⟩
  | 24 => ⟨S32x32, .f32⟩
  | 25 => ⟨S_, .f32⟩
  | 26 => ⟨S32x32, .f32⟩
  | 27 => ⟨S32x32, .f32⟩
  | 28 => ⟨S32x32, .f32⟩
  | 29 => ⟨S32x32, .f32⟩
  | 30 => ⟨S_, .f32⟩
  | 31 => ⟨S32x32, .f32⟩
  | 32 => ⟨S32x32, .f32⟩
  | 33 => ⟨S32x32, .f32⟩
  | 34 => ⟨S1x32, .f32⟩
  | 35 => ⟨S_, .f32⟩
  | 36 => ⟨S1x32, .f32⟩
  | 37 => ⟨S1x32, .f32⟩
  | 38 => ⟨S32x32, .f32⟩
  | 39 => ⟨S32x32, .f32⟩
  | _ => ⟨S32x32, .f32⟩

abbrev hbmTy (i : Nat) : BufTy := match i / 128 with
  | 0 => hbmTy0_0 i
  | 1 => hbmTy0_1 i
  | _ => ⟨S32x32, .f32⟩

abbrev bufTy : (tb : Table) → Fin (tcTables nBuf tb) → BufTy
  | .hbm, ⟨i, _⟩ => hbmTy i
  | _, _ => ⟨S32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_10 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_11 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_12 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_13 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_14 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_15 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_16 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_17 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_18 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_19 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_20 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_21 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_22 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_23 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_24 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_25 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_26 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_27 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_28 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_29 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_cst_30 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_cst_31 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩

abbrev nD : Nat := 1
abbrev τ : Topo := Topo.v7x

variable {F : FTy → Type} [FloatOps F]

class Facts₀ : Prop where
  bcast_S_S32x32 : S_.BroadcastsInDim S32x32 (![] : Fin 0 → Fin S32x32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S32x32_0_1 : S1x32.BroadcastsInDim S32x32 (![0, 1] : Fin 2 → Fin S32x32.rank)
  dot_S32x32_S32x32_S32x32_1_1_0_0_n_n_wf : DotDims.WF S32x32 S32x32 S32x32 [1] [1] [0] [0] [] []

variable [Facts₀]

def dot_S32x32_S32x32_S32x32_1_1_0_0_n_n : DotDims S32x32 S32x32 S32x32 where
  lhsContracting := [1]
  rhsContracting := [1]
  lhsNonContracting := [0]
  rhsNonContracting := [0]
  lhsBatch := []
  rhsBatch := []
  wf := dot_S32x32_S32x32_S32x32_1_1_0_0_n_n_wf

class Facts : Prop extends Facts₀ where

variable [Facts]
-- ==== Proof.Digits.lean ====
/-
  The mathematics shared by the two programs, over the extended reals.

  Both the kernel and the reference compute, elementwise on a 32 × 32 array x,
      u₀ = x · c      (c the f32 word of 0.1, one and the same word on both sides)
      uₙ₊₁ = (uₙ − ⌊uₙ⌋) · 10     (n = 0 … 30: thirty-one digit-shift steps)
  and then contract u₃₁ with W along the second axis of both and add 32 · b along the rows:
      out[p, q] = Σₖ u₃₁[p, k] · W[q, k] + 32 · b[q].
  This module names those pieces once, at the ideal instance, so that the kernel's payloads and the
  reference's composed term can each be shown to be this function. The digit-shift chain is kept as an
  ITERATE of one step and is never expanded: each step reads its argument twice (once under the floor),
  so an expanded chain of thirty-one steps doubles at every level.
-/
import Idealize.ShloMosaic.PureOps
import Idealize.ShloMosaic.PureOps.Ideal
import Idealize.ShloMosaic.Lib.ValueIdx

noncomputable section

namespace Cert.DigitShift

open Idealize.ShloMosaic Idealize.ShloMosaic.ValueIdx
open scoped BigOperators

/-- The 32 × 32 matrices and the length-32 vector of this problem. -/
abbrev Sq : Shape := ⟨2, ![32, 32]⟩
abbrev Row : Shape := ⟨1, ![32]⟩
/-- The shape of a scalar constant. -/
abbrev Scal : Shape := ⟨0, ![]⟩

variable {s : Shape}

/-- The fractional part v − ⌊v⌋, elementwise. -/
def fracPart (v : FVec Ideal s .f32) : FVec Ideal s .f32 := subf v (floor v)

/-- Multiplication of every element by the constant an f32 word denotes. -/
def scaleBy (w : BitVec 32) (v : FVec Ideal s .f32) : FVec Ideal s .f32 :=
  mulf v (broadcast s (Scalar.ofBits .f32 w))

/-- One digit shift: drop the integer part, then move the decimal point one place (the word is 10.0). -/
def digitStep (v : FVec Ideal s .f32) : FVec Ideal s .f32 := scaleBy 0x41200000#32 (fracPart v)

/-- The encoder's elementwise part: scale by the word of 0.1, then thirty-one digit shifts. -/
def encode (x : FVec Ideal s .f32) : FVec Ideal s .f32 := digitStep^[31] (scaleBy 0x3DCCCCCD#32 x)

/-- Row p of v against row q of W, plus 32 · b[q] (the word is 32.0): what both programs do after the
    digit shifts. -/
def rowsPlusBias (v w : FVec Ideal Sq .f32) (b : FVec Ideal Row .f32) : FVec Ideal Sq .f32 := fun j =>
  (∑ k : Fin 32, v (ix2 (j 0) k) * w (ix2 (j 1) k)) + Ideal.ofBits .f32 0x42000000#32 * b (ix1 (j 1))

/-- The whole result as one function of the three argument arrays. -/
def G (x w : FVec Ideal Sq .f32) (b : FVec Ideal Row .f32) : FVec Ideal Sq .f32 := rowsPlusBias (encode x) w b

/-! The host's spelling of the same elementwise pieces: at the ideal instance the host's floor is the
    vector unit's floor (both the integer floor lifted to the extended reals), and a rank-0 constant
    broadcast to a shape is the splat of that constant. -/

theorem hostFloor_eq (v : FVec Ideal s .f32) : Host.floor v = floor v := rfl

theorem bcastConst_eq (w : BitVec 32) (h : Scal.BroadcastsInDim s (![] : Fin 0 → Fin s.rank)) :
    broadcastInDim s ![] h (constant Scal .f32 w) = (broadcast s (Scalar.ofBits .f32 w) : FVec Ideal s .f32) := rfl

end Cert.DigitShift

end
-- ==== Proof.KernelBody.lean ====
/-
  The kernel body's arithmetic as one function of its three loaded blocks.

  The printed body is cut into three payloads: the first scales x by the word of 0.1 and runs ten digit
  shifts plus the fractional part of the eleventh; the second runs twelve more "multiply by ten, take the
  fractional part" rounds; the third runs eight more, the last multiplication by ten, and then the matrix
  product against the transposed W and the bias row. Each payload is, by unfolding, the corresponding
  stretch of the iterate: composed, the value that enters the matrix product is `encode x` — thirty-one
  digit shifts of x · 0.1.
-/
import proofs.«106170_j82463372083643_1_alg».proof.Proof.Gen.KernelIdeal.Skeleton
import proofs.«106170_j82463372083643_1_alg».proof.Proof.Digits

noncomputable section

namespace Cert.KernelIdeal.Body

open Idealize.ShloMosaic Cert.KernelIdeal Cert.KernelIdeal.Gen Cert.DigitShift

/-- The word of 10.0 as the scalar the body splats. -/
abbrev ten : Ideal .f32 := Scalar.ofBits .f32 0x41200000#32

/-- Statements 1–60: x · 0.1, ten digit shifts, and the fractional part of the result. -/
theorem pay1_eq (x0 : Vec Ideal S32x32 .f32) :
    k0_pay1 (F := Ideal) x0 = fracPart (digitStep^[10] (scaleBy 0x3DCCCCCD#32 x0)) := rfl

/-- Statements 61–120: scaling by ten completes a digit shift of the value before the fractional part;
    eleven more shifts, then the fractional part again. -/
theorem pay2_eq (u : FVec Ideal S32x32 .f32) :
    k0_pay2 (F := Ideal) (fracPart u) ten = fracPart (digitStep^[12] u) := rfl

/-- What the third payload does after its last digit shift: the value v (already in f32; the change of
    format to bf16 is the identity here) times Wᵀ into a zero accumulator, plus the row 32 · b broadcast
    down the rows. -/
def tail (v : FVec Ideal S32x32 .f32) (x1 : Vec Ideal S32x32 .f32) (x2 : Vec Ideal S1x32 .f32) : FVec Ideal S32x32 .f32 :=
  addf (matmul dot_S32x32_S32x32_S32x32_1_0_0_1_n_n none (truncf .bf16 v Facts₀.bitsLt_bf16_f32)
      (transpose S32x32 [1, 0] (truncf .bf16 x1 Facts₀.bitsLt_bf16_f32) Facts₀.transposes_S32x32_p1_0_S32x32)
      (constant S32x32 .f32 0x00000000#32))
    (broadcastTo S32x32 (mulf (broadcast S1x32 (Scalar.ofBits .f32 0x42000000#32)) (shapeCast S1x32 x2 Facts₀.shapeCasts_S1x32_S1x32))
      Facts₀.broadcasts_S1x32_S32x32)

/-- Statements 121–180: nine more digit shifts of the value before the fractional part, then the tail. -/
theorem pay3_eq (u : FVec Ideal S32x32 .f32) (x1 : Vec Ideal S32x32 .f32) (x2 : Vec Ideal S1x32 .f32) :
    k0_pay3 (F := Ideal) (fracPart u) ten x1 x2 = tail (digitStep^[9] u) x1 x2 := rfl

/-- The three payloads composed: the body stores `tail (encode x) W b₂`. -/
theorem body_eq (x0 x1 : Vec Ideal S32x32 .f32) (x2 : Vec Ideal S1x32 .f32) :
    k0_pay3 (F := Ideal) (k0_pay2 (k0_pay1 x0) ten) ten x1 x2 = tail (encode x0) x1 x2 := by
  rw [pay1_eq, pay2_eq, pay3_eq]
  rfl

end Cert.KernelIdeal.Body

end
-- ==== Proof.KernelValue.lean ====
/-
  The kernel body's tail read at an index.

  After the digit shifts the body forms v · Wᵀ on the matrix unit — the contraction runs over the second
  axis of v and the first axis of the transposed W, into a zero accumulator — and adds the [1, 32] row
  32 · b₂ broadcast over the 32 rows. At the ideal instance the matrix product read at (p, q) is the plain
  sum Σₖ v[p, k] · Wᵀ[k, q] = Σₖ v[p, k] · W[q, k] (no rounding, no chunk order, 0 + s = s), and the
  broadcast row read at (p, q) is 32 · b₂[0, q]. So the tail is `rowsPlusBias` of v, W and b₂'s one row.
-/
import proofs.«106170_j82463372083643_1_alg».proof.Proof.KernelBody
import Idealize.ShloMosaic.PureOps.Ideal.Laws
import Idealize.ShloMosaic.Lib.ValueIdx
import Idealize.ShloMosaic.Lib.ValueLayout

noncomputable section

namespace Cert.KernelIdeal.Body

open Idealize.ShloMosaic Idealize.ShloMosaic.ValueIdx Cert.KernelIdeal Cert.KernelIdeal.Gen Cert.DigitShift
open scoped BigOperators

/-! The operand indices of the matrix product, axis by axis: the left operand is read at
    (output row, contraction position), the right operand at (contraction position, output column). -/

theorem lhs_axis0 (j : S32x32.Idx) (k : dot_S32x32_S32x32_S32x32_1_0_0_1_n_n.contr.Idx) :
    (dot_S32x32_S32x32_S32x32_1_0_0_1_n_n.lhsIdx j k 0).val = (j 0).val := rfl

theorem lhs_axis1 (j : S32x32.Idx) (k : dot_S32x32_S32x32_S32x32_1_0_0_1_n_n.contr.Idx) :
    (dot_S32x32_S32x32_S32x32_1_0_0_1_n_n.lhsIdx j k 1).val = (k ⟨0, by decide⟩).val :=
  DotDims.lhsIdx_val_of_single _ rfl j k

theorem rhs_axis0 (j : S32x32.Idx) (k : dot_S32x32_S32x32_S32x32_1_0_0_1_n_n.contr.Idx) :
    (dot_S32x32_S32x32_S32x32_1_0_0_1_n_n.rhsIdx j k 0).val = (k ⟨0, by decide⟩).val :=
  DotDims.rhsIdx_val_of_single _ rfl j k

theorem rhs_axis1 (j : S32x32.Idx) (k : dot_S32x32_S32x32_S32x32_1_0_0_1_n_n.contr.Idx) :
    (dot_S32x32_S32x32_S32x32_1_0_0_1_n_n.rhsIdx j k 1).val = (j 1).val := rfl

/-- The matrix product at (p, q): the sum over k of v[p, k] · W[q, k]. The two changes of format are the
    identity on extended reals, the transpose swaps W's coordinates, and the accumulator is zero. -/
theorem product_apply (v w : FVec Ideal S32x32 .f32) (p q : Fin 32) :
    matmul dot_S32x32_S32x32_S32x32_1_0_0_1_n_n none (truncf .bf16 v Facts₀.bitsLt_bf16_f32)
        (transpose S32x32 [1, 0] (truncf .bf16 w Facts₀.bitsLt_bf16_f32) Facts₀.transposes_S32x32_p1_0_S32x32)
        (constant S32x32 .f32 0x00000000#32) (ix2 p q)
      = ∑ k : Fin 32, v (ix2 p k) * w (ix2 q k) := by
  simp only [matmul]
  rw [Ideal.matmul_constant_zero_apply,
    ← Equiv.sum_comp (contrEquiv1 dot_S32x32_S32x32_S32x32_1_0_0_1_n_n 32 rfl rfl).symm]
  refine Finset.sum_congr rfl fun k _ => ?_
  have hk := contrEquiv1_symm_val dot_S32x32_S32x32_S32x32_1_0_0_1_n_n 32 rfl rfl k
  have hl : dot_S32x32_S32x32_S32x32_1_0_0_1_n_n.lhsIdx (ix2 p q)
      ((contrEquiv1 dot_S32x32_S32x32_S32x32_1_0_0_1_n_n 32 rfl rfl).symm k) = ix2 p k := by
    funext a; apply Fin.ext
    match a with
    | ⟨0, _⟩ => exact lhs_axis0 _ _
    | ⟨1, _⟩ => exact (lhs_axis1 _ _).trans hk
  have hr : dot_S32x32_S32x32_S32x32_1_0_0_1_n_n.rhsIdx (ix2 p q)
      ((contrEquiv1 dot_S32x32_S32x32_S32x32_1_0_0_1_n_n 32 rfl rfl).symm k) = ix2 k q := by
    funext a; apply Fin.ext
    match a with
    | ⟨0, _⟩ => exact (rhs_axis0 _ _).trans hk
    | ⟨1, _⟩ => exact rhs_axis1 _ _
  rw [hl, hr, transpose_ix2_apply]
  rfl

/-- The bias term at (p, q): 32 · b₂[0, q]. The shape cast is to the same shape, the row is broadcast down. -/
theorem bias_apply (x2 : Vec Ideal S1x32 .f32) (p q : Fin 32) :
    broadcastTo S32x32 (mulf (broadcast S1x32 (Scalar.ofBits .f32 0x42000000#32)) (shapeCast S1x32 x2 Facts₀.shapeCasts_S1x32_S1x32))
        Facts₀.broadcasts_S1x32_S32x32 (ix2 p q)
      = Ideal.ofBits .f32 0x42000000#32 * x2 (ix2 (0 : Fin 1) q) := by
  rw [broadcastTo_1b_ab_apply, shapeCast_self]
  rfl

/-- The tail is the row-against-row contraction plus the bias, with b read off the block's one row. -/
theorem tail_eq (v : FVec Ideal S32x32 .f32) (x1 : Vec Ideal S32x32 .f32) (x2 : Vec Ideal S1x32 .f32) :
    tail v x1 x2 = rowsPlusBias v x1 (fun i => x2 (ix2 (0 : Fin 1) (i 0))) := by
  funext j
  obtain ⟨p, q, rfl⟩ : ∃ (p q : Fin 32), j = ix2 p q := ⟨j 0, j 1, eq_ix2 j⟩
  unfold tail rowsPlusBias
  show FloatOps.addf _ _ = _
  rw [product_apply, bias_apply]
  rfl

end Cert.KernelIdeal.Body

end
-- ==== Proof.KernelArray.lean ====
/-
  The kernel's output array after the run is G of the argument arrays.

  The grid has one point and every window's block is its whole array (all block indices are zero), so a
  block read through its window is the array itself. The body stores, through the whole-block rectangle,
  the tail of the encoded x-block against the W-block and the [1, 32] block of the reshaped b; that block's
  one row is b (a length-32 vector cast to [1, 32] keeps its entries in order). So the one block written
  back is G(x, W, b) read through the whole-array block, and that block covers every index of the output.
-/
import proofs.«106170_j82463372083643_1_alg».proof.Proof.Gen.KernelIdeal.Value
import proofs.«106170_j82463372083643_1_alg».proof.Proof.KernelValue
import Idealize.ShloMosaic.Lib.Pipeline.Value
import Idealize.ShloMosaic.Lib.StableHlo.Run
import Idealize.ShloMosaic.Lib.ValueLayout

noncomputable section

namespace Cert.KernelIdeal.Final

open Idealize.ShloMosaic Idealize.ShloMosaic.TcCoe Idealize.SL.Sem Idealize.ShloMosaic.ValueIdx
open Cert.KernelIdeal Cert.KernelIdeal.Gen Cert.DigitShift
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- What the body leaves in the output block, from the three input blocks: one store through the whole
    block, of the composed payloads, each load through the whole block too. -/
theorem stored_eq (x0 x1 : Vec Ideal S32x32 .f32) (x2 : Vec Ideal S1x32 .f32) :
    out0_3 x0 x1 x2 = rowsPlusBias (encode x0) x1 (fun i => x2 (ix2 (0 : Fin 1) (i 0))) := by
  unfold out0_3
  rw [View.canon_unit_zero zeros]
  simp only [View.ld_unit_zero (S := S32x32) zeros, View.ld_unit_zero (S := S1x32) zeros]
  rw [Body.body_eq, Body.tail_eq]

/-- Every window's block index is zero on both axes at every grid point (decided over the one point). -/
theorem idx_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The x-block at any point is the whole array x as the region finds it. -/
theorem blk0_eq (c : Dev nD) (t : Fin cfg0.N) : (iblk m c 0 t : S32x32.Idx → Ideal .f32) = V m c main_arg0 := by
  obtain ⟨e0, e1, -⟩ := idx_zero t
  funext y
  show V m c main_arg0 (((cfg0.win 0).blk t).view.emb y) = V m c main_arg0 y
  refine congrArg (V m c main_arg0 : S32x32.Idx → Ideal .f32) (funext fun a => Fin.ext ?_)
  match a with
  | ⟨0, _⟩ => show win0_0.index t (0 : Fin 2) * 32 + 1 * (y 0).val = (y 0).val; omega
  | ⟨1, _⟩ => show win0_0.index t (1 : Fin 2) * 32 + 1 * (y 1).val = (y 1).val; omega

/-- The W-block at any point is the whole array W. -/
theorem blk1_eq (c : Dev nD) (t : Fin cfg0.N) : (iblk m c 1 t : S32x32.Idx → Ideal .f32) = V m c main_arg1 := by
  obtain ⟨-, -, e0, e1, -⟩ := idx_zero t
  funext y
  show V m c main_arg1 (((cfg0.win 1).blk t).view.emb y) = V m c main_arg1 y
  refine congrArg (V m c main_arg1 : S32x32.Idx → Ideal .f32) (funext fun a => Fin.ext ?_)
  match a with
  | ⟨0, _⟩ => show win0_1.index t (0 : Fin 2) * 32 + 1 * (y 0).val = (y 0).val; omega
  | ⟨1, _⟩ => show win0_1.index t (1 : Fin 2) * 32 + 1 * (y 1).val = (y 1).val; omega

/-- The bias block at any point is the whole [1, 32] array the host reshape wrote. -/
theorem blk2_eq (c : Dev nD) (t : Fin cfg0.N) : (iblk m c 2 t : S1x32.Idx → Ideal .f32) = V m c main_v0 := by
  obtain ⟨-, -, -, -, e0, e1, -⟩ := idx_zero t
  funext y
  show V m c main_v0 (((cfg0.win 2).blk t).view.emb y) = V m c main_v0 y
  refine congrArg (V m c main_v0 : S1x32.Idx → Ideal .f32) (funext fun a => Fin.ext ?_)
  match a with
  | ⟨0, _⟩ => show win0_2.index t (0 : Fin 2) * 1 + 1 * (y 0).val = (y 0).val; omega
  | ⟨1, _⟩ => show win0_2.index t (1 : Fin 2) * 32 + 1 * (y 1).val = (y 1).val; omega

/-- The [1, 32] array the region finds is b in row-major order under the new shape. -/
theorem reshaped_eq (c : Dev nD) :
    (V m c main_v0 : S1x32.Idx → Ideal .f32)
      = shapeCast S1x32 (m ((c : Thread nD τ).loc main_arg2) : S32.Idx → Ideal .f32) Facts₀.shapeCasts_S32_S1x32 := by
  dsimp only [V, hostOps0]; after_results; rfl

/-- Its one row, entry by entry, is b. -/
theorem row_of_reshape (b : FVec Ideal S32 .f32) :
    (fun i : S32.Idx => shapeCast S1x32 b Facts₀.shapeCasts_S32_S1x32 (ix2 (0 : Fin 1) (i 0))) = b := by
  funext i
  obtain ⟨q, rfl⟩ : ∃ q : Fin 32, i = ix1 q := ⟨i 0, eq_ix1 i⟩
  exact shapeCast_a_1a_apply b _ 0 q

/-- What point t writes back is G of the argument arrays, read through the point's block. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Value.flushed3]
  refine (congrArg ((cfg0.win 3).cut (grid0.coords t)) (stored_eq (iblk m c 0 t) (iblk m c 1 t) (iblk m c 2 t))).trans ?_
  rw [blk0_eq, blk1_eq, blk2_eq, reshaped_eq, row_of_reshape, V_main_arg0, V_main_arg1]
  obtain ⟨-, -, -, -, -, -, e0, e1⟩ := idx_zero t
  funext j
  show rowsPlusBias _ _ _ j = G _ _ _ (((cfg0.win 3).blk t).view.emb j)
  have hj : ((cfg0.win 3).blk t).view.emb j = j := by
    funext a; apply Fin.ext
    match a with
    | ⟨0, _⟩ => show win0_3.index t (0 : Fin 2) * 32 + 1 * (j 0).val = (j 0).val; omega
    | ⟨1, _⟩ => show win0_3.index t (1 : Fin 2) * 32 + 1 * (j 1).val = (j 1).val; omega
  rw [hj]
  rfl

/-- The one point's block covers every index of the output array. -/
theorem cover (c : Dev nD) (i : S32x32.Idx) :
    ∃ t : Fin cfg0.N, (cfg0.win 3).flush t = true ∧ i ∈ ((cfg0.win 3).blk t).view.set := by
  obtain ⟨-, -, -, -, -, -, e0, e1⟩ := idx_zero t0_0
  refine ⟨t0_0, flush0_3 t0_0, ?_⟩
  show i ∈ ((View.whole main_v1).slice (win0_3.rect t0_0)).set
  rw [View.set_slice_whole, Rect.mem_set_unit]
  intro a
  match a with
  | ⟨0, _⟩ =>
    show win0_3.index t0_0 (0 : Fin 2) * 32 ≤ (i 0).val ∧ (i 0).val < win0_3.index t0_0 (0 : Fin 2) * 32 + 32
    have h0 : (i 0).val < 32 := (i 0).isLt
    omega
  | ⟨1, _⟩ =>
    show win0_3.index t0_0 (1 : Fin 2) * 32 ≤ (i 1).val ∧ (i 1).val < win0_3.index t0_0 (1 : Fin 2) * 32 + 32
    have h1 : (i 1).val < 32 := (i 1).isLt
    omega

/-- The output array after the run. -/
theorem final (c : Dev nD) :
    (dats m 0 c).arrAt 3 cfg0.N
      = G (m ((c : Thread nD τ).loc main_arg0)) (m ((c : Thread nD τ).loc main_arg1)) (m ((c : Thread nD τ).loc main_arg2)) :=
  (dats m 0 c).arrAt_eq_of_cover 3 _ (fun t _ => flushed_eq m c t) (cover c)

/-- The kernel's run with the result named: every weakly fair execution ends with the output array at G of
    the arguments and the arguments unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Final

end
-- ==== Proof.RefValue.lean ====
/-
  The reference's composed term is the same function G of its arguments.

  The reference's run names thirty-one intermediate arrays: the first is x · 0.1, and each next one is one
  digit shift ((v − ⌊v⌋) · 10) of the one before; its result applies one more digit shift, contracts the
  second axes of that value and of W, and adds 32 · b broadcast over the rows. At the ideal instance the
  host's floor is the integer floor and a broadcast scalar constant is a splat, so every named array is
  `digitStep` of its predecessor by unfolding; chained, the value entering the contraction is `encode x`.
  The contraction read at (p, q) is Σₖ v[p, k] · W[q, k], and the bias there is 32 · b[q].
-/
import proofs.«106170_j82463372083643_1_alg».proof.Proof.Gen.ReferenceIdeal.Run
import proofs.«106170_j82463372083643_1_alg».proof.Proof.Digits
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx Idealize.ShloMosaic.StableHlo
open Cert.ReferenceIdeal Cert.ReferenceIdeal.Gen Cert.ReferenceIdeal.Value Cert.DigitShift
open scoped BigOperators

variable (V0 : Valuation τ sig (Elt Ideal))

/-! ## The chain of named arrays: each is one digit shift of the one before -/

theorem first_eq : res_main_v1 V0 = scaleBy (s := S32x32) 0x3DCCCCCD#32 (V0 (Proc.devRef .tc main_arg0)) := rfl
theorem shift5 : res_main_v5 V0 = digitStep (s := S32x32) (res_main_v1 V0) := rfl
theorem shift9 : res_main_v9 V0 = digitStep (s := S32x32) (res_main_v5 V0) := rfl
theorem shift13 : res_main_v13 V0 = digitStep (s := S32x32) (res_main_v9 V0) := rfl
theorem shift17 : res_main_v17 V0 = digitStep (s := S32x32) (res_main_v13 V0) := rfl
theorem shift21 : res_main_v21 V0 = digitStep (s := S32x32) (res_main_v17 V0) := rfl
theorem shift25 : res_main_v25 V0 = digitStep (s := S32x32) (res_main_v21 V0) := rfl
theorem shift29 : res_main_v29 V0 = digitStep (s := S32x32) (res_main_v25 V0) := rfl
theorem shift33 : res_main_v33 V0 = digitStep (s := S32x32) (res_main_v29 V0) := rfl
theorem shift37 : res_main_v37 V0 = digitStep (s := S32x32) (res_main_v33 V0) := rfl
theorem shift41 : res_main_v41 V0 = digitStep (s := S32x32) (res_main_v37 V0) := rfl
theorem shift45 : res_main_v45 V0 = digitStep (s := S32x32) (res_main_v41 V0) := rfl
theorem shift49 : res_main_v49 V0 = digitStep (s := S32x32) (res_main_v45 V0) := rfl
theorem shift53 : res_main_v53 V0 = digitStep (s := S32x32) (res_main_v49 V0) := rfl
theorem shift57 : res_main_v57 V0 = digitStep (s := S32x32) (res_main_v53 V0) := rfl
theorem shift61 : res_main_v61 V0 = digitStep (s := S32x32) (res_main_v57 V0) := rfl
theorem shift65 : res_main_v65 V0 = digitStep (s := S32x32) (res_main_v61 V0) := rfl
theorem shift69 : res_main_v69 V0 = digitStep (s := S32x32) (res_main_v65 V0) := rfl
theorem shift73 : res_main_v73 V0 = digitStep (s := S32x32) (res_main_v69 V0) := rfl
theorem shift77 : res_main_v77 V0 = digitStep (s := S32x32) (res_main_v73 V0) := rfl
theorem shift81 : res_main_v81 V0 = digitStep (s := S32x32) (res_main_v77 V0) := rfl
theorem shift85 : res_main_v85 V0 = digitStep (s := S32x32) (res_main_v81 V0) := rfl
theorem shift89 : res_main_v89 V0 = digitStep (s := S32x32) (res_main_v85 V0) := rfl
theorem shift93 : res_main_v93 V0 = digitStep (s := S32x32) (res_main_v89 V0) := rfl
theorem shift97 : res_main_v97 V0 = digitStep (s := S32x32) (res_main_v93 V0) := rfl
theorem shift101 : res_main_v101 V0 = digitStep (s := S32x32) (res_main_v97 V0) := rfl
theorem shift105 : res_main_v105 V0 = digitStep (s := S32x32) (res_main_v101 V0) := rfl
theorem shift109 : res_main_v109 V0 = digitStep (s := S32x32) (res_main_v105 V0) := rfl
theorem shift113 : res_main_v113 V0 = digitStep (s := S32x32) (res_main_v109 V0) := rfl
theorem shift117 : res_main_v117 V0 = digitStep (s := S32x32) (res_main_v113 V0) := rfl
theorem shift121 : res_main_v121 V0 = digitStep (s := S32x32) (res_main_v117 V0) := rfl

/-- The last named array is thirty digit shifts of x · 0.1, so one more shift of it is `encode x`. -/
theorem encoded_eq :
    digitStep (s := S32x32) (res_main_v121 V0) = encode (s := S32x32) (V0 (Proc.devRef .tc main_arg0)) := by
  rw [shift121, shift117, shift113, shift109, shift105, shift101, shift97, shift93, shift89, shift85, shift81,
    shift77, shift73, shift69, shift65, shift61, shift57, shift53, shift49, shift45, shift41, shift37, shift33,
    shift29, shift25, shift21, shift17, shift13, shift9, shift5, first_eq]
  rfl

/-! ## The contraction and the bias, read at an index -/

/-- What the reference does with the encoded value: contract with W, add 32 · b over the rows. -/
def tail (v w : FVec Ideal S32x32 .f32) (b : FVec Ideal S32 .f32) : FVec Ideal S32x32 .f32 :=
  addf (Host.dotGeneral dot_S32x32_S32x32_S32x32_1_1_0_0_n_n none v w)
    (broadcastInDim S32x32 ![0, 1] bcast_S1x32_S32x32_0_1
      (mulf (broadcastInDim S1x32 ![] bcast_S_S1x32 (constant S_ .f32 0x42000000#32))
        (broadcastInDim S1x32 ![1] bcast_S32_S1x32_1 b)))

/-! The operand indices of the contraction, axis by axis: the left operand is read at (output row,
    contraction position), the right operand at (output column, contraction position). -/

theorem lhs_axis0 (j : S32x32.Idx) (k : dot_S32x32_S32x32_S32x32_1_1_0_0_n_n.contr.Idx) :
    (dot_S32x32_S32x32_S32x32_1_1_0_0_n_n.lhsIdx j k 0).val = (j 0).val := rfl

theorem lhs_axis1 (j : S32x32.Idx) (k : dot_S32x32_S32x32_S32x32_1_1_0_0_n_n.contr.Idx) :
    (dot_S32x32_S32x32_S32x32_1_1_0_0_n_n.lhsIdx j k 1).val = (k ⟨0, by decide⟩).val :=
  DotDims.lhsIdx_val_of_single _ rfl j k

theorem rhs_axis0 (j : S32x32.Idx) (k : dot_S32x32_S32x32_S32x32_1_1_0_0_n_n.contr.Idx) :
    (dot_S32x32_S32x32_S32x32_1_1_0_0_n_n.rhsIdx j k 0).val = (j 1).val := rfl

theorem rhs_axis1 (j : S32x32.Idx) (k : dot_S32x32_S32x32_S32x32_1_1_0_0_n_n.contr.Idx) :
    (dot_S32x32_S32x32_S32x32_1_1_0_0_n_n.rhsIdx j k 1).val = (k ⟨0, by decide⟩).val :=
  DotDims.rhsIdx_val_of_single _ rfl j k

/-- The contraction at (p, q): the sum over k of v[p, k] · W[q, k]. -/
theorem product_apply (v w : FVec Ideal S32x32 .f32) (p q : Fin 32) :
    Host.dotGeneral dot_S32x32_S32x32_S32x32_1_1_0_0_n_n none v w (ix2 p q) = ∑ k : Fin 32, v (ix2 p k) * w (ix2 q k) := by
  simp only [Host.dotGeneral]
  rw [Ideal.dotGeneral_apply,
    ← Equiv.sum_comp (contrEquiv1 dot_S32x32_S32x32_S32x32_1_1_0_0_n_n 32 rfl rfl).symm]
  refine Finset.sum_congr rfl fun k _ => ?_
  have hk := contrEquiv1_symm_val dot_S32x32_S32x32_S32x32_1_1_0_0_n_n 32 rfl rfl k
  have hl : dot_S32x32_S32x32_S32x32_1_1_0_0_n_n.lhsIdx (ix2 p q)
      ((contrEquiv1 dot_S32x32_S32x32_S32x32_1_1_0_0_n_n 32 rfl rfl).symm k) = ix2 p k := by
    funext a; apply Fin.ext
    match a with
    | ⟨0, _⟩ => exact lhs_axis0 _ _
    | ⟨1, _⟩ => exact (lhs_axis1 _ _).trans hk
  have hr : dot_S32x32_S32x32_S32x32_1_1_0_0_n_n.rhsIdx (ix2 p q)
      ((contrEquiv1 dot_S32x32_S32x32_S32x32_1_1_0_0_n_n 32 rfl rfl).symm k) = ix2 q k := by
    funext a; apply Fin.ext
    match a with
    | ⟨0, _⟩ => exact rhs_axis0 _ _
    | ⟨1, _⟩ => exact (rhs_axis1 _ _).trans hk
  rw [hl, hr]

/-- The bias at (p, q): 32 · b[q]. The vector is laid along the second axis of a [1, 32] row, scaled, and
    the row copied to every p. -/
theorem bias_apply (b : FVec Ideal S32 .f32) (p q : Fin 32) :
    broadcastInDim S32x32 ![0, 1] bcast_S1x32_S32x32_0_1
        (mulf (broadcastInDim S1x32 ![] bcast_S_S1x32 (constant S_ .f32 0x42000000#32))
          (broadcastInDim S1x32 ![1] bcast_S32_S1x32_1 b)) (ix2 p q)
      = Ideal.ofBits .f32 0x42000000#32 * b (ix1 q) := by
  rw [broadcastInDim_apply ![0, 1] bcast_S1x32_S32x32_0_1 _ (ix2 p q) (ix2 (0 : Fin 1) q)
    (fun a => match a with | ⟨0, _⟩ => rfl | ⟨1, _⟩ => rfl)]
  show Ideal.ofBits .f32 0x42000000#32 * broadcastInDim S1x32 ![1] bcast_S32_S1x32_1 b (ix2 (0 : Fin 1) q) = _
  rw [broadcastInDim_apply ![1] bcast_S32_S1x32_1 b (ix2 (0 : Fin 1) q) (ix1 q)
    (fun a => match a with | ⟨0, _⟩ => rfl)]

/-- The reference's tail is the row-against-row contraction plus the bias. -/
theorem tail_eq (v w : FVec Ideal S32x32 .f32) (b : FVec Ideal S32 .f32) : tail v w b = rowsPlusBias v w b := by
  funext j
  obtain ⟨p, q, rfl⟩ : ∃ (p q : Fin 32), j = ix2 p q := ⟨j 0, j 1, eq_ix2 j⟩
  unfold tail rowsPlusBias
  show FloatOps.addf _ _ = _
  rw [product_apply, bias_apply]
  rfl

/-! ## The run's term -/

/-- The term the reference's run leaves in its result, of any valuation of the arguments, is G of them. -/
theorem result_eq :
    addf (Host.dotGeneral (φ₁ := .f32) (φ₂ := .f32) dot_S32x32_S32x32_S32x32_1_1_0_0_n_n none (mulf (subf (res_main_v121 V0) (Host.floor (res_main_v121 V0))) (broadcastInDim S32x32 ![] bcast_S_S32x32 (constant S_ .f32 0x41200000#32))) (V0 (Proc.devRef .tc main_arg1) : FVec Ideal S32x32 .f32)) (broadcastInDim S32x32 ![0, 1] bcast_S1x32_S32x32_0_1 (mulf (broadcastInDim S1x32 ![] bcast_S_S1x32 (constant S_ .f32 0x42000000#32)) (broadcastInDim S1x32 ![1] bcast_S32_S1x32_1 (V0 (Proc.devRef .tc main_arg2) : FVec Ideal S32 .f32))))
      = G (V0 (Proc.devRef .tc main_arg0) : FVec Ideal S32x32 .f32) (V0 (Proc.devRef .tc main_arg1) : FVec Ideal S32x32 .f32) (V0 (Proc.devRef .tc main_arg2) : FVec Ideal S32 .f32) := by
  show tail (digitStep (s := S32x32) (res_main_v121 V0)) (V0 (Proc.devRef .tc main_arg1) : FVec Ideal S32x32 .f32) (V0 (Proc.devRef .tc main_arg2) : FVec Ideal S32 .f32) = _
  rw [encoded_eq, tail_eq]
  rfl

end Cert.ReferenceIdeal.RefValue

end
-- ==== Proof.lean ====
/-
  The certificate of the digit-shift encoder: kernel and reference are one function over the extended reals.

  Both programs scale x by the same f32 word (0.1), apply thirty-one digit shifts v ↦ (v − ⌊v⌋) · 10,
  contract the result with W along the second axis of both, and add 32 · b along the rows. Every constant
  is the same word on both sides, the floor is the same function on the vector unit and on the host, and
  the changes of float format in the kernel are the identity on extended reals; the only difference in
  arrangement is that the kernel transposes W and contracts over its first axis, which is the same sum.
  So no law beyond 0 + s = s is needed, and the precondition (finite inputs) is never opened.

  The frames of the two kernel programs are their generated frame certificates; the reference's frame is
  its generated run with the result dropped; the idealization rewrote nothing, so there is nothing to
  preserve. The equivalence sets the kernel's run (its output array named as G of the arguments) beside the
  reference's run (its composed term shown to be G of its arguments) at arguments that agree.
-/
import proofs.«106170_j82463372083643_1_alg».proof.Defs
import proofs.«106170_j82463372083643_1_alg».proof.Proof.Gen.Kernel
import proofs.«106170_j82463372083643_1_alg».proof.Proof.Gen.Kernel.Skeleton
import proofs.«106170_j82463372083643_1_alg».proof.Proof.Gen.Kernel.Launch
import proofs.«106170_j82463372083643_1_alg».proof.Proof.Gen.Kernel.Points
import proofs.«106170_j82463372083643_1_alg».proof.Proof.Gen.Kernel.Frame
import proofs.«106170_j82463372083643_1_alg».proof.Proof.Gen.KernelIdeal
import proofs.«106170_j82463372083643_1_alg».proof.Proof.Gen.KernelIdeal.Skeleton
import proofs.«106170_j82463372083643_1_alg».proof.Proof.Gen.KernelIdeal.Launch
import proofs.«106170_j82463372083643_1_alg».proof.Proof.Gen.KernelIdeal.Points
import proofs.«106170_j82463372083643_1_alg».proof.Proof.Gen.KernelIdeal.Frame
import proofs.«106170_j82463372083643_1_alg».proof.Proof.Gen.ReferenceIdeal
import proofs.«106170_j82463372083643_1_alg».proof.Proof.Gen.Pre_finite_inputs
import proofs.«106170_j82463372083643_1_alg».proof.Proof.Gen.KernelIdeal.Value
import proofs.«106170_j82463372083643_1_alg».proof.Proof.Gen.ReferenceIdeal.Run
import proofs.«106170_j82463372083643_1_alg».proof.Proof.KernelArray
import proofs.«106170_j82463372083643_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's output array and the reference's result are both G of them. -/
theorem algebraic : Cert.algebraic_KernelIdeal_ReferenceIdeal := by
  intro m ρ m' ρ' _ hagree
  refine ⟨fun c => Cert.DigitShift.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq (StableHlo.launchContents m' c)).trans ?_
  show Cert.DigitShift.G
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
